-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x256 : Shape := ⟨2, ![262144, 256]⟩
abbrev S256x256 : Shape := ⟨2, ![256, 256]⟩
abbrev S256 : Shape := ⟨1, ![256]⟩
abbrev S_ : Shape := ⟨0, ![]⟩

class Facts : Prop where
  bcast_S_S262144x256 : S_.BroadcastsInDim S262144x256 (![] : Fin 0 → Fin S262144x256.rank)
  reducesTo_S262144x256_S_d0_1 : S262144x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn {F : FTy → Type} [FloatOps F] (main_arg0 : FVec F S262144x256 .f32) (main_arg1 : FVec F S256x256 .f32) (main_arg2 : FVec F S256 .f32) : IVec S_ 1 :=
  let main_v0 : FVec F S262144x256 .f32 := Host.absf main_arg0
  let main_cst : FVec F S_ .f32 := constant S_ .f32 0x7F800000#32
  let main_v1 : FVec F S262144x256 .f32 := broadcastInDim S262144x256 ![] bcast_S_S262144x256 main_cst
  let main_v2 : IVec S262144x256 1 := cmpf .olt main_v0 main_v1
  let main_c : IVec S_ 1 := constantI S_ 1 1#1
  let main_v3 : IVec S_ 1 := (fun x v => Host.reduce IntOp.andi x v reducesTo_S262144x256_S_d0_1 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  main_v13
-- ==== Kernel.lean ====
abbrev S262144x256 : Shape := ⟨2, ![262144, 256]⟩
abbrev S256x256 : Shape := ⟨2, ![256, 256]⟩
abbrev S256 : Shape := ⟨1, ![256]⟩
abbrev S2048x256 : Shape := ⟨2, ![2048, 256]⟩
abbrev S256x1 : Shape := ⟨2, ![256, 1]⟩
abbrev S2048 : Shape := ⟨1, ![2048]⟩
abbrev S2048x1 : Shape := ⟨2, ![2048, 1]⟩
abbrev S1x256 : Shape := ⟨2, ![1, 256]⟩

abbrev nBuf : Space → Nat
  | .hbm => 4
  | .vmem => 6
  | .smem => 0
  | _ => 0

abbrev bufTy : (tb : Table) → Fin (tcTables nBuf tb) → BufTy
  | .hbm, ⟨0, _⟩ => ⟨S262144x256, .f32⟩
  | .hbm, ⟨1, _⟩ => ⟨S256x256, .f32⟩
  | .hbm, ⟨2, _⟩ => ⟨S256, .f32⟩
  | .hbm, ⟨3, _⟩ => ⟨S262144x256, .f32⟩
  | .local _ .vmem, ⟨0, _⟩ => ⟨S2048x256, .f32⟩
  | .local _ .vmem, ⟨1, _⟩ => ⟨S2048x256, .f32⟩
  | .local _ .vmem, ⟨2, _⟩ => ⟨S256x256, .f32⟩
  | .local _ .vmem, ⟨3, _⟩ => ⟨S256, .f32⟩
  | .local _ .vmem, ⟨4, _⟩ => ⟨S2048x256, .f32⟩
  | .local _ .vmem, ⟨5, _⟩ => ⟨S2048x256, .f32⟩
  | _, _ => ⟨S262144x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S256x256_S256x256_0_0 : ∀ a, (![0, 0] : Fin 2 → Nat) a + S256x256.size a ≤ S256x256.size a
  h_S256x256 : 0 < S256x256.numel
  reduces_S256x256_S256 : S256x256.Reduces [1] S256
  shapeCasts_S256_S256x1 : S256.ShapeCasts S256x1
  broadcasts_S256x1_S256x256 : S256x1.Broadcasts S256x256
  inb_S2048x256_S2048x256_0_0 : ∀ a, (![0, 0] : Fin 2 → Nat) a + S2048x256.size a ≤ S2048x256.size a
  h_S2048x256 : 0 < S2048x256.numel
  reduces_S2048x256_S2048 : S2048x256.Reduces [1] S2048
  shapeCasts_S2048_S2048x1 : S2048.ShapeCasts S2048x1
  broadcasts_S2048x1_S2048x256 : S2048x1.Broadcasts S2048x256
  bitsLt_bf16_f32 : FTy.bits .bf16 < FTy.bits .f32
  shapeCasts_S256_S1x256 : S256.ShapeCasts S1x256
  broadcasts_S1x256_S2048x256 : S1x256.Broadcasts S2048x256
  inb_S256_S256_0 : ∀ a, (![0] : Fin 1 → Nat) a + S256.size a ≤ S256.size a
  h_S256 : 0 < S256.numel
  dot_S2048x256_S256x256_S2048x256_1_1_0_0_n_n_wf : DotDims.WF S2048x256 S256x256 S2048x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S262144x256.size a
  hwx0_0 : ∀ i : grid0.Coords, EltTy.bits .f32 = 32 ∨ (Rect.block (s := S262144x256) S2048x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x256.size a ≤ S262144x256.size a
  hwx0_3 : ∀ i : grid0.Coords, EltTy.bits .f32 = 32 ∨ (Rect.block (s := S262144x256) S2048x256.size (cc0_transform_3 i) (hinb0_3 i)).WholeWords (EltTy.packing .f32)

variable [Facts₀]

def dot_S2048x256_S256x256_S2048x256_1_1_0_0_n_n : DotDims S2048x256 S256x256 S2048x256 where
  lhsContracting := [1]
  rhsContracting := [1]
  lhsNonContracting := [0]
  rhsNonContracting := [0]
  lhsBatch := []
  rhsBatch := []
  wf := dot_S2048x256_S256x256_S2048x256_1_1_0_0_n_n_wf

abbrev win0_0 : Pipeline.Window sig grid0 :=
  Pipeline.Window.ofSpec (Memref.whole main_arg0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S2048x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S262144x256 : Shape := ⟨2, ![262144, 256]⟩
abbrev S256x256 : Shape := ⟨2, ![256, 256]⟩
abbrev S256 : Shape := ⟨1, ![256]⟩
abbrev S_ : Shape := ⟨0, ![]⟩
abbrev S256x1 : Shape := ⟨2, ![256, 1]⟩
abbrev S262144 : Shape := ⟨1, ![262144]⟩
abbrev S262144x1 : Shape := ⟨2, ![262144, 1]⟩
abbrev S1x256 : Shape := ⟨2, ![1, 256]⟩

abbrev nBuf : Space → Nat
  | .hbm => 41
  | .vmem => 0
  | .smem => 0
  | _ => 0

abbrev bufTy : (tb : Table) → Fin (tcTables nBuf tb) → BufTy
  | .hbm, ⟨0, _⟩ => ⟨S262144x256, .f32⟩
  | .hbm, ⟨1, _⟩ => ⟨S256x256, .f32⟩
  | .hbm, ⟨2, _⟩ => ⟨S256, .f32⟩
  | .hbm, ⟨3, _⟩ => ⟨S_, .f32⟩
  | .hbm, ⟨4, _⟩ => ⟨S256, .f32⟩
  | .hbm, ⟨5, _⟩ => ⟨S256x1, .f32⟩
  | .hbm, ⟨6, _⟩ => ⟨S_, .f32⟩
  | .hbm, ⟨7, _⟩ => ⟨S256x1, .f32⟩
  | .hbm, ⟨8, _⟩ => ⟨S256x1, .f32⟩
  | .hbm, ⟨9, _⟩ => ⟨S256x256, .f32⟩
  | .hbm, ⟨10, _⟩ => ⟨S256x256, .f32⟩
  | .hbm, ⟨11, _⟩ => ⟨S_, .f32⟩
  | .hbm, ⟨12, _⟩ => ⟨S262144, .f32⟩
  | .hbm, ⟨13, _⟩ => ⟨S262144x1, .f32⟩
  | .hbm, ⟨14, _⟩ => ⟨S_, .f32⟩
  | .hbm, ⟨15, _⟩ => ⟨S262144x1, .f32⟩
  | .hbm, ⟨16, _⟩ => ⟨S262144x1, .f32⟩
  | .hbm, ⟨17, _⟩ => ⟨S262144x256, .f32⟩
  | .hbm, ⟨18, _⟩ => ⟨S262144x256, .f32⟩
  | .hbm, ⟨19, _⟩ => ⟨S262144x256, .f32⟩
  | .hbm, ⟨20, _⟩ => ⟨S_, .f32⟩
  | .hbm, ⟨21, _⟩ => ⟨S262144, .f32⟩
  | .hbm, ⟨22, _⟩ => ⟨S262144x1, .f32⟩
  | .hbm, ⟨23, _⟩ => ⟨S262144x1, .f32⟩
  | .hbm, ⟨24, _⟩ => ⟨S256x256, .f32⟩
  | .hbm, ⟨25, _⟩ => ⟨S_, .f32⟩
  | .hbm, ⟨26, _⟩ => ⟨S256, .f32⟩
  | .hbm, ⟨27, _⟩ => ⟨S256, .f32⟩
  | .hbm, ⟨28, _⟩ => ⟨S262144x256, .f32⟩
  | .hbm, ⟨29, _⟩ => ⟨S1x256, .f32⟩
  | .hbm, ⟨30, _⟩ => ⟨S262144x256, .f32⟩
  | .hbm, ⟨31, _⟩ => ⟨S262144x256, .f32⟩
  | .hbm, ⟨32, _⟩ => ⟨S262144x256, .f32⟩
  | .hbm, ⟨33, _⟩ => ⟨S262144x256, .f32⟩
  | .hbm, ⟨34, _⟩ => ⟨S_, .f32⟩
  | .hbm, ⟨35, _⟩ => ⟨S_, .f32⟩
  | .hbm, ⟨36, _⟩ => ⟨S262144x256, .f32⟩
  | .hbm, ⟨37, _⟩ => ⟨S262144x256, .f32⟩
  | .hbm, ⟨38, _⟩ => ⟨S1x256, .f32⟩
  | .hbm, ⟨39, _⟩ => ⟨S262144x256, .f32⟩
  | .hbm, ⟨40, _⟩ => ⟨S262144x256, .f32⟩
  | _, _ => ⟨S262144x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_4 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_5 : Ref sig .tc := ⟨.hbm, 34, rfl⟩
abbrev main_call0_v0 : Ref sig .tc := ⟨.hbm, 35, rfl⟩
abbrev main_call0_v1 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩

abbrev nD : Nat := 1
abbrev τ : Topo := Topo.v7x

variable {F : FTy → Type} [FloatOps F]

class Facts₀ : Prop where
  reducesTo_S256x256_S256_d1 : S256x256.ReducesTo [1] S256
  h_S_ : 0 < S_.numel
  bcast_S256_S256x1_0 : S256.BroadcastsInDim S256x1 (![0] : Fin 1 → Fin S256x1.rank)
  bcast_S_S256x1 : S_.BroadcastsInDim S256x1 (![] : Fin 0 → Fin S256x1.rank)
  bcast_S256x1_S256x256_0_1 : S256x1.BroadcastsInDim S256x256 (![0, 1] : Fin 2 → Fin S256x256.rank)
  reducesTo_S262144x256_S262144_d1 : S262144x256.ReducesTo [1] S262144
  bcast_S262144_S262144x1_0 : S262144.BroadcastsInDim S262144x1 (![0] : Fin 1 → Fin S262144x1.rank)
  bcast_S_S262144x1 : S_.BroadcastsInDim S262144x1 (![] : Fin 0 → Fin S262144x1.rank)
  bcast_S262144x1_S262144x256_0_1 : S262144x1.BroadcastsInDim S262144x256 (![0, 1] : Fin 2 → Fin S262144x256.rank)
  bcast_S256_S1x256_1 : S256.BroadcastsInDim S1x256 (![1] : Fin 1 → Fin S1x256.rank)
  bcast_S1x256_S262144x256_0_1 : S1x256.BroadcastsInDim S262144x256 (![0, 1] : Fin 2 → Fin S262144x256.rank)
  bcast_S_S262144x256 : S_.BroadcastsInDim S262144x256 (![] : Fin 0 → Fin S262144x256.rank)
  dot_S262144x256_S256x256_S262144x256_1_1_0_0_n_n_wf : DotDims.WF S262144x256 S256x256 S262144x256 [1] [1] [0] [0] [] []

variable [Facts₀]

def dot_S262144x256_S256x256_S262144x256_1_1_0_0_n_n : DotDims S262144x256 S256x256 S262144x256 where
  lhsContracting := [1]
  rhsContracting := [1]
  lhsNonContracting := [0]
  rhsNonContracting := [0]
  lhsBatch := []
  rhsBatch := []
  wf := dot_S262144x256_S256x256_S262144x256_1_1_0_0_n_n_wf

class Facts : Prop extends Facts₀ where

variable [Facts]
-- ==== Proof.Spec.lean ====
/-
  What both programs compute, as one function of the three argument arrays.

  Take the mean off every row of `x` (262144 rows of 256) and off every row of `weight` (256 rows of 256). Entry
  `(r, o)` of the result is the inner product of centred row `r` of `x` with centred row `o` of `weight`, divided by
  the product of the two rows' Euclidean lengths — the correlation coefficient of the two rows —, raised to at least
  the f32 number nearest 1e-10, plus `bias o`. Everything is on the extended reals: the division and the square
  root are the ideal instance's, the divisor `256` and the floor are the values of their f32 words, which are never
  opened because both programs carry the same words.
-/
import Idealize.ShloMosaic.PureOps.Ideal
import Idealize.ShloMosaic.Lib.ValueIdx

noncomputable section

open scoped BigOperators

namespace Cert.Pcc

open Idealize.ShloMosaic Idealize.ShloMosaic.ValueIdx

/-- The row length as both programs write it: the value of the f32 word of `256.0`. -/
abbrev rowLen : EReal := Ideal.ofBits .f32 0x43800000#32
/-- The floor under the correlation: the value of the f32 word nearest `1e-10`. -/
abbrev floorWord : EReal := Ideal.ofBits .f32 0x2EDBE6FF#32

/-- A row with its mean taken off: `v k − (Σⱼ v j) / 256`. -/
def centre (v : Fin 256 → EReal) (k : Fin 256) : EReal := v k - Ideal.div (∑ j : Fin 256, v j) rowLen

/-- The Euclidean length of the centred row. -/
def length (v : Fin 256 → EReal) : EReal := Ideal.sqrt (∑ k : Fin 256, centre v k * centre v k)

/-- One entry of the result from a row of `x`, a row of `weight` and a bias: the rows' correlation, floored, plus the bias. -/
def entry (x w : Fin 256 → EReal) (b : EReal) : EReal :=
  max (Ideal.div (∑ k : Fin 256, centre x k * centre w k) (length x * length w)) floorWord + b

/-- Row `r` of a two-axis array with 256 columns. -/
abbrev row {n : ℕ} (A : (⟨2, ![n, 256]⟩ : Shape).Idx → EReal) (r : Fin n) : Fin 256 → EReal := fun k => A (ix2 r k)

/-- The result array: entry `(r, o)` from row `r` of `x`, row `o` of `weight` and `bias o`. -/
def result (X : (⟨2, ![262144, 256]⟩ : Shape).Idx → EReal) (W : (⟨2, ![256, 256]⟩ : Shape).Idx → EReal)
    (B : (⟨1, ![256]⟩ : Shape).Idx → EReal) : (⟨2, ![262144, 256]⟩ : Shape).Idx → EReal :=
  fun i => entry (row X (i 0)) (row W (i 1)) (B (ix1 (i 1)))

/-- The result at `(r, o)`. -/
theorem result_ix2 (X : (⟨2, ![262144, 256]⟩ : Shape).Idx → EReal) (W : (⟨2, ![256, 256]⟩ : Shape).Idx → EReal)
    (B : (⟨1, ![256]⟩ : Shape).Idx → EReal) (r : Fin 262144) (o : Fin 256) :
    result X W B (ix2 r o) = entry (row X r) (row W o) (B (ix1 o)) := rfl

end Cert.Pcc

end
-- ==== Proof.LibColumns.lean ====
/-
  Column forms of the layout operations, and a row sum, read at an index.

  A sum along the second axis of an `[a, b]` array that keeps the axis gives an `[a, 1]` column; taking it off the
  array again broadcasts the column back to `[a, b]`. Here: the cast `[a] → [a, 1]` reads entry `p` at `(p, u)`
  whatever the unit coordinate `u`; the broadcast `[a, 1] → [a, b]` reads the column's entry `(p, 0)` at every
  `(p, c)`; and a lane sum of an `[n, b]` array over its second axis is, at row `r`, the sum over `k` of the
  entries `(r, k)`. All for arbitrary extents.
-/
import Idealize.ShloMosaic.Lib.ValueIdx
import Idealize.ShloMosaic.Lib.Pipeline.Value
import Idealize.ShloMosaic.PureOps.Ideal.Laws

noncomputable section

open scoped BigOperators

namespace Cert.Columns

open Idealize.ShloMosaic Idealize.ShloMosaic.ValueIdx

variable {α : Type}

/-- An `[a]` array cast to the column `[a, 1]` reads, at `(p, u)`, the operand at `p`: the row-major position of
    `(p, u)` in `[a, 1]` is `p · 1 + u` with `u = 0`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A lane sum over the second axis of an `[n, b]` array of extended reals, from the zero word, is at row `r` the sum
    of that row's entries. -/
theorem rowSum_apply {n b : ℕ} {φ : FTy} (src : FVec Ideal ⟨2, ![n, b]⟩ φ) (acc : BitVec φ.bits)
    (h : (⟨2, ![n, b]⟩ : Shape).Reduces [1] ⟨1, ![n]⟩) (hφ : FKind.Formats φ) (hacc : acc = FKind.add.neutral φ hφ) (r : Fin n) :
    multiReduction .add [1] ⟨1, ![n]⟩ src acc h hφ hacc (ix1 r) = ∑ k : Fin b, src (ix2 r k) := by
  refine (Ideal.multiReduction_add_single src acc h hφ hacc (ix1 r)).trans ?_
  refine Finset.sum_congr rfl fun k _ => congrArg src ?_
  funext ax
  apply Fin.ext
  match ax with
  | ⟨0, _⟩ => rfl
  | ⟨1, _⟩ => rfl

end Cert.Columns

end
-- ==== Proof.KernelEntry.lean ====
/-
  The kernel body's stored value, read at one entry, is the specification's entry.

  One grid step loads the whole `weight` block, a 2048-row block of `x` and the bias, and stores one 2048 × 256
  block. At `(p, q)` of that block: the two centred blocks read a row's entry minus the row's lane sum over 256
  (a keepdims column, broadcast back); the matrix unit's product into a zero accumulator, its operands narrowed to
  bf16 — the identity on extended reals —, is the sum over `k` of centred `x` row `p` times centred `weight` row
  `q`; the denominator is the product of the two rows' lengths, one carried by a column and one by a row
  broadcast; the maximum with the floor word and the row-broadcast bias follow.
-/
import proofs.«117806_j29291676959209_1_alg».proof.Proof.Gen.KernelIdeal.Skeleton
import proofs.«117806_j29291676959209_1_alg».proof.Proof.Spec
import proofs.«117806_j29291676959209_1_alg».proof.Proof.LibColumns
import Idealize.ShloMosaic.Lib.ValueLayout
import Idealize.ShloMosaic.PureOps.Ideal.Laws

noncomputable section

open scoped BigOperators

namespace Cert.KernelIdeal.Entry

open Cert.KernelIdeal Cert.KernelIdeal.Gen
open Idealize.ShloMosaic Idealize.ShloMosaic.ValueIdx
open Cert.Pcc Cert.Columns

/-! ## The matrix product at an entry -/

theorem lhs_axis0 (i : S2048x256.Idx) (c : dot_S2048x256_S256x256_S2048x256_1_1_0_0_n_n.contr.Idx) :
    (dot_S2048x256_S256x256_S2048x256_1_1_0_0_n_n.lhsIdx i c 0).val = (i 0).val := by
  unfold DotDims.lhsIdx
  rw [dif_neg (show ¬(0 : Fin S2048x256.rank) ∈ dot_S2048x256_S256x256_S2048x256_1_1_0_0_n_n.lhsBatch by decide), dif_pos (show (0 : Fin S2048x256.rank) ∈ dot_S2048x256_S256x256_S2048x256_1_1_0_0_n_n.lhsNonContracting by decide)]
  rfl
theorem lhs_axis1 (i : S2048x256.Idx) (c : dot_S2048x256_S256x256_S2048x256_1_1_0_0_n_n.contr.Idx) :
    (dot_S2048x256_S256x256_S2048x256_1_1_0_0_n_n.lhsIdx i c 1).val = (c ⟨0, by decide⟩).val :=
  dot_S2048x256_S256x256_S2048x256_1_1_0_0_n_n.lhsIdx_val_of_single rfl i c
theorem rhs_axis0 (i : S2048x256.Idx) (c : dot_S2048x256_S256x256_S2048x256_1_1_0_0_n_n.contr.Idx) :
    (dot_S2048x256_S256x256_S2048x256_1_1_0_0_n_n.rhsIdx i c 0).val = (i 1).val := by
  unfold DotDims.rhsIdx
  rw [dif_neg (show ¬(0 : Fin S256x256.rank) ∈ dot_S2048x256_S256x256_S2048x256_1_1_0_0_n_n.rhsBatch by decide), dif_pos (show (0 : Fin S256x256.rank) ∈ dot_S2048x256_S256x256_S2048x256_1_1_0_0_n_n.rhsNonContracting by decide)]
  rfl
theorem rhs_axis1 (i : S2048x256.Idx) (c : dot_S2048x256_S256x256_S2048x256_1_1_0_0_n_n.contr.Idx) :
    (dot_S2048x256_S256x256_S2048x256_1_1_0_0_n_n.rhsIdx i c 1).val = (c ⟨0, by decide⟩).val :=
  dot_S2048x256_S256x256_S2048x256_1_1_0_0_n_n.rhsIdx_val_of_single rfl i c

/-- Both operands are contracted along their second axis, so entry `(p, q)` of the product into a zero accumulator is
    the sum over `k` of the left operand's `(p, k)` times the right operand's `(q, k)`. -/
theorem product_apply {φ₁ φ₂ : FTy} (l : FVec Ideal S2048x256 φ₁) (r : FVec Ideal S256x256 φ₂) (p : Fin 2048) (q : Fin 256) :
    matmul dot_S2048x256_S256x256_S2048x256_1_1_0_0_n_n none l r (constant (F := Ideal) S2048x256 .f32 0x00000000#32) (ix2 p q)
      = ∑ k : Fin 256, l (ix2 p k) * r (ix2 q k) := by
  simp only [matmul]
  rw [Ideal.matmul_constant_zero_apply, ← Equiv.sum_comp (contrEquiv1 dot_S2048x256_S256x256_S2048x256_1_1_0_0_n_n 256 rfl rfl).symm]
  refine Finset.sum_congr rfl fun k _ => ?_
  have hk := contrEquiv1_symm_val dot_S2048x256_S256x256_S2048x256_1_1_0_0_n_n 256 rfl rfl k
  have el : dot_S2048x256_S256x256_S2048x256_1_1_0_0_n_n.lhsIdx (ix2 p q) ((contrEquiv1 dot_S2048x256_S256x256_S2048x256_1_1_0_0_n_n 256 rfl rfl).symm k) = ix2 p k := funext fun a => Fin.ext (by
    match a with
    | ⟨0, _⟩ => exact lhs_axis0 _ _
    | ⟨1, _⟩ => exact (lhs_axis1 _ _).trans hk)
  have er : dot_S2048x256_S256x256_S2048x256_1_1_0_0_n_n.rhsIdx (ix2 p q) ((contrEquiv1 dot_S2048x256_S256x256_S2048x256_1_1_0_0_n_n 256 rfl rfl).symm k) = ix2 q k := funext fun a => Fin.ext (by
    match a with
    | ⟨0, _⟩ => exact rhs_axis0 _ _
    | ⟨1, _⟩ => exact (rhs_axis1 _ _).trans hk)
  rw [el, er]

/-! ## A centred block and its rows' lengths -/

/-- A block with each row's mean taken off, as the body writes it: the lane sum cast to a column, divided by the
    splat of 256, broadcast back and subtracted. At `(p, k)` it is the centred row `p` at `k`. -/
theorem centred_apply {n : ℕ} (v : FVec Ideal ⟨2, ![n, 256]⟩ .f32)
    (hred : (⟨2, ![n, 256]⟩ : Shape).Reduces [1] ⟨1, ![n]⟩) (hφ : FKind.Formats .f32)
    (hacc : (0x00000000#32 : BitVec 32) = FKind.add.neutral .f32 hφ)
    (hsc : (⟨1, ![n]⟩ : Shape).ShapeCasts ⟨2, ![n, 1]⟩) (hbc : (⟨2, ![n, 1]⟩ : Shape).Broadcasts ⟨2, ![n, 256]⟩)
    (p : Fin n) (k : Fin 256) :
    subf v (broadcastTo ⟨2, ![n, 256]⟩ (divf (shapeCast ⟨2, ![n, 1]⟩ (multiReduction .add [1] ⟨1, ![n]⟩ v 0x00000000#32 hred hφ hacc) hsc)
      (broadcast ⟨2, ![n, 1]⟩ (Scalar.ofBits (F := Ideal) .f32 0x43800000#32))) hbc) (ix2 p k) = centre (row v p) k := by
  show v (ix2 p k) - broadcastTo ⟨2, ![n, 256]⟩ _ hbc (ix2 p k) = _
  rw [broadcastTo_a1_ab_apply]
  show v (ix2 p k) - Ideal.div (shapeCast ⟨2, ![n, 1]⟩ _ hsc (ix2 p (0 : Fin 1))) _ = _
  rw [shapeCast_a_a1_apply, rowSum_apply]
  rfl

/-- The lane sum of the squares of a centred block, at row `p`, under the square root: the row's length. -/
theorem length_apply {n : ℕ} (v c : FVec Ideal ⟨2, ![n, 256]⟩ .f32) (p : Fin n) (hc : ∀ k : Fin 256, c (ix2 p k) = centre (row v p) k)
    (hred : (⟨2, ![n, 256]⟩ : Shape).Reduces [1] ⟨1, ![n]⟩) (hφ : FKind.Formats .f32)
    (hacc : (0x00000000#32 : BitVec 32) = FKind.add.neutral .f32 hφ) :
    Ideal.sqrt (multiReduction .add [1] ⟨1, ![n]⟩ (mulf c c) 0x00000000#32 hred hφ hacc (ix1 p)) = length (row v p) := by
  rw [rowSum_apply]
  unfold length
  refine congrArg Ideal.sqrt (Finset.sum_congr rfl fun k _ => ?_)
  show c (ix2 p k) * c (ix2 p k) = _
  rw [hc k]

/-! ## The stored value -/

/-- The `weight` block with each row's mean taken off, in the body's own operations. -/
def centredW (w : FVec Ideal S256x256 .f32) : FVec Ideal S256x256 .f32 :=
  subf w (broadcastTo S256x256 (divf (shapeCast S256x1 (multiReduction .add [1] S256 w 0x00000000#32 reduces_S256x256_S256 (.inl rfl) rfl) shapeCasts_S256_S256x1)
    (broadcast S256x1 (Scalar.ofBits (F := Ideal) .f32 0x43800000#32))) broadcasts_S256x1_S256x256)

/-- The `x` block with each row's mean taken off, in the body's own operations. -/
def centredX (x : FVec Ideal S2048x256 .f32) : FVec Ideal S2048x256 .f32 :=
  subf x (broadcastTo S2048x256 (divf (shapeCast S2048x1 (multiReduction .add [1] S2048 x 0x00000000#32 reduces_S2048x256_S2048 (.inl rfl) rfl) shapeCasts_S2048_S2048x1)
    (broadcast S2048x1 (Scalar.ofBits (F := Ideal) .f32 0x43800000#32))) broadcasts_S2048x1_S2048x256)

theorem centredW_apply (w : FVec Ideal S256x256 .f32) (q k : Fin 256) : centredW w (ix2 q k) = centre (row w q) k :=
  centred_apply w reduces_S256x256_S256 (.inl rfl) rfl shapeCasts_S256_S256x1 broadcasts_S256x1_S256x256 q k

theorem centredX_apply (x : FVec Ideal S2048x256 .f32) (p : Fin 2048) (k : Fin 256) : centredX x (ix2 p k) = centre (row x p) k :=
  centred_apply x reduces_S2048x256_S2048 (.inl rfl) rfl shapeCasts_S2048_S2048x1 broadcasts_S2048x1_S2048x256 p k

/-- The body's stored value over the two centred blocks: the product of the centred blocks over the product of the
    rows' lengths, floored, plus the bias row. -/
theorem stored_eq (w : Vec Ideal S256x256 .f32) (x : Vec Ideal S2048x256 .f32) (b : Vec Ideal S256 .f32) :
    k0_pay1 (F := Ideal) w x b
      = addf (maximumf (divf
            (matmul dot_S2048x256_S256x256_S2048x256_1_1_0_0_n_n none (truncf .bf16 (centredX x) bitsLt_bf16_f32) (truncf .bf16 (centredW w) bitsLt_bf16_f32)
              (constant (F := Ideal) S2048x256 .f32 0x00000000#32))
            (mulf
              (broadcastTo S2048x256 (sqrt (shapeCast S2048x1 (multiReduction .add [1] S2048 (mulf (centredX x) (centredX x)) 0x00000000#32 reduces_S2048x256_S2048 (.inl rfl) rfl) shapeCasts_S2048_S2048x1)) broadcasts_S2048x1_S2048x256)
              (broadcastTo S2048x256 (shapeCast S1x256 (sqrt (multiReduction .add [1] S256 (mulf (centredW w) (centredW w)) 0x00000000#32 reduces_S256x256_S256 (.inl rfl) rfl)) shapeCasts_S256_S1x256) broadcasts_S1x256_S2048x256)))
          (broadcast S2048x256 (Scalar.ofBits (F := Ideal) .f32 0x2EDBE6FF#32)))
        (broadcastTo S2048x256 (shapeCast S1x256 b shapeCasts_S256_S1x256) broadcasts_S1x256_S2048x256) := rfl

/-- A square root of a vector at an index is the square root of the entry. -/
theorem sqrt_apply {s : Shape} (v : FVec Ideal s .f32) (i : s.Idx) : sqrt v i = Ideal.sqrt (v i) := rfl

/-- Entry `(p, q)` of the stored block is the specification's entry of row `p` of the `x` block, row `q` of the
    `weight` block and entry `q` of the bias. -/
theorem stored_apply (w : Vec Ideal S256x256 .f32) (x : Vec Ideal S2048x256 .f32) (b : Vec Ideal S256 .f32) (p : Fin 2048) (q : Fin 256) :
    k0_pay1 (F := Ideal) w x b (ix2 p q) = entry (row x p) (row w q) (b (ix1 q)) := by
  rw [stored_eq]
  simp only [addf_apply, maximumf_apply, divf_apply, mulf_apply, broadcast_apply]
  rw [product_apply, broadcastTo_a1_ab_apply, broadcastTo_1b_ab_apply, broadcastTo_1b_ab_apply,
    shapeCast_a_1a_apply, shapeCast_a_1a_apply, sqrt_apply, sqrt_apply, shapeCast_a_a1_apply]
  have hx := length_apply x (centredX x) p (centredX_apply x p) reduces_S2048x256_S2048 (.inl rfl) rfl
  have hw := length_apply w (centredW w) q (centredW_apply w q) reduces_S256x256_S256 (.inl rfl) rfl
  unfold entry
  refine congrArg (· + b (ix1 q)) (congrArg₂ max (congrArg₂ Ideal.div (Finset.sum_congr rfl fun k _ => ?_) (congrArg₂ (· * ·) hx hw)) rfl)
  show centredX x (ix2 p k) * centredW w (ix2 q k) = _
  rw [centredX_apply, centredW_apply]

end Cert.KernelIdeal.Entry

end
-- ==== Proof.KernelArray.lean ====
/-
  The kernel's result array after the run is the specification's function of the argument arrays.

  Grid point `t` (of 128) stages rows `2048·t … 2048·t + 2047` of `x`, the whole of `weight` and of `bias`, and
  writes back rows `2048·t … 2048·t + 2047` of the result. So what point `t` writes at `(p, q)` of its block is the
  specification's entry of row `2048·t + p` of `x`, row `q` of `weight` and `bias q`: block `t` of the result
  function. The 128 blocks tile the 262144 rows — row `r` lies in block `r / 2048` — so the array ends holding the
  function everywhere.
-/
import proofs.«117806_j29291676959209_1_alg».proof.Proof.Gen.KernelIdeal.Value
import proofs.«117806_j29291676959209_1_alg».proof.Proof.KernelEntry

noncomputable section

namespace Cert.KernelIdeal.ArrayValue

open Cert.KernelIdeal Cert.KernelIdeal.Gen Idealize.ShloMosaic Idealize.ShloMosaic.TcCoe Idealize.SL.Sem
open Idealize.ShloMosaic.Pipeline (Dat)
open Idealize.ShloMosaic.ValueIdx
open Cert.Pcc

variable (m : (ℓ : Loc nD τ sig) → Buf (Elt Ideal) ℓ) (ρ : Dev nD → PrngReg)

theorem origin2 : (![0, 0] : Fin 2 → Nat) = fun _ => 0 := funext fun a => by fin_cases a <;> rfl
theorem origin1 : (![0] : Fin 1 → Nat) = fun _ => 0 := funext fun a => by fin_cases a; rfl

/-- The index maps over the grid: the `x` window and the result window sit at block row `t`, the `weight` and
    `bias` windows at block zero. -/
theorem blockIdx : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-! ## The arrays and the blocks, at their literal types -/

abbrev xArr (c : Dev nD) : Vec Ideal S262144x256 .f32 := V m c main_arg0
abbrev wArr (c : Dev nD) : Vec Ideal S256x256 .f32 := V m c main_arg1
abbrev bArr (c : Dev nD) : Vec Ideal S256 .f32 := V m c main_arg2
abbrev xBlock (c : Dev nD) (t : Fin cfg0.N) : Vec Ideal S2048x256 .f32 := iblk m c 0 t
abbrev wBlock (c : Dev nD) (t : Fin cfg0.N) : Vec Ideal S256x256 .f32 := iblk m c 1 t
abbrev bBlock (c : Dev nD) (t : Fin cfg0.N) : Vec Ideal S256 .f32 := iblk m c 2 t

/-- Row `p` of point `t`'s block is row `2048·t + p` of the array. -/
theorem arrayRow_lt (t : Fin cfg0.N) (p : Fin 2048) : t.val * 2048 + p.val < 262144 := by
  have ht : t.val < 128 := (show cfg0.N = 128 from N_0) ▸ t.isLt
  have := p.isLt
  omega

/-- Point `t`'s block of `x` at `(p, k)` is the array at `(2048·t + p, k)`. -/
theorem xBlock_apply (c : Dev nD) (t : Fin cfg0.N) (p : Fin 2048) (k : Fin 256) :
    xBlock m c t (ix2 p k) = xArr m c (ix2 ⟨t.val * 2048 + p.val, arrayRow_lt t p⟩ k) := by
  obtain ⟨e0, e1, -⟩ := blockIdx t
  show V m c main_arg0 (((cfg0.win 0).blk t).view.emb (ix2 p k)) = V m c main_arg0 _
  refine congrArg _ (funext fun a => Fin.ext ?_)
  match a with
  | ⟨0, _⟩ => show win0_0.index t (0 : Fin 2) * 2048 + 1 * p.val = t.val * 2048 + p.val; omega
  | ⟨1, _⟩ => show win0_0.index t (1 : Fin 2) * 256 + 1 * k.val = k.val; omega

/-- Every point's block of `weight` is the whole array. -/
theorem wBlock_apply (c : Dev nD) (t : Fin cfg0.N) (q k : Fin 256) : wBlock m c t (ix2 q k) = wArr m c (ix2 q k) := by
  obtain ⟨-, -, e2, e3, -⟩ := blockIdx t
  show V m c main_arg1 (((cfg0.win 1).blk t).view.emb (ix2 q k)) = V m c main_arg1 _
  refine congrArg _ (funext fun a => Fin.ext ?_)
  match a with
  | ⟨0, _⟩ => show win0_1.index t (0 : Fin 2) * 256 + 1 * q.val = q.val; omega
  | ⟨1, _⟩ => show win0_1.index t (1 : Fin 2) * 256 + 1 * k.val = k.val; omega

/-- Every point's block of `bias` is the whole array. -/
theorem bBlock_apply (c : Dev nD) (t : Fin cfg0.N) (q : Fin 256) : bBlock m c t (ix1 q) = bArr m c (ix1 q) := by
  obtain ⟨-, -, -, -, e4, -⟩ := blockIdx t
  show V m c main_arg2 (((cfg0.win 2).blk t).view.emb (ix1 q)) = V m c main_arg2 _
  refine congrArg _ (funext fun a => Fin.ext ?_)
  match a with
  | ⟨0, _⟩ => show win0_2.index t (0 : Fin 1) * 256 + 1 * q.val = q.val; omega

/-! ## What a point writes back -/

/-- WHAT POINT `t` WRITES BACK is block `t` of the result function of the argument arrays. -/
theorem flushed_eq (c : Dev nD) (t : Fin cfg0.N) :
    (dats m 0 c).flushed 3 t = ((cfg0.win 3).blk t).view.read (Elt Ideal) (result (xArr m c) (wArr m c) (bArr m c)) := by
  rw [Value.flushed3]
  unfold out0_3
  rw [View.canon_unit_zero origin2]
  simp only [View.ld_unit_zero (S := S2048x256) origin2, View.ld_unit_zero (S := S256x256) origin2, View.ld_unit_zero (S := S256) origin1]
  obtain ⟨-, -, -, -, -, e5, e6⟩ := blockIdx t
  funext j
  obtain ⟨p, q, rfl⟩ : ∃ (p : Fin 2048) (q : Fin 256), j = ix2 p q := ⟨j 0, j 1, eq_ix2 j⟩
  show k0_pay1 (F := Ideal) (wBlock m c t) (xBlock m c t) (bBlock m c t) (ix2 p q)
    = result (xArr m c) (wArr m c) (bArr m c) (((cfg0.win 3).blk t).view.emb (ix2 p q))
  have hi : ((cfg0.win 3).blk t).view.emb (ix2 p q) = ix2 (⟨t.val * 2048 + p.val, arrayRow_lt t p⟩ : Fin 262144) q :=
    funext fun a => Fin.ext (by
      match a with
      | ⟨0, _⟩ => show win0_3.index t (0 : Fin 2) * 2048 + 1 * p.val = t.val * 2048 + p.val; omega
      | ⟨1, _⟩ => show win0_3.index t (1 : Fin 2) * 256 + 1 * q.val = q.val; omega)
  rw [hi, result_ix2, Entry.stored_apply (wBlock m c t) (xBlock m c t) (bBlock m c t) p q, bBlock_apply]
  have hx : row (xBlock m c t) p = row (xArr m c) ⟨t.val * 2048 + p.val, arrayRow_lt t p⟩ := funext fun k => xBlock_apply m c t p k
  have hw : row (wBlock m c t) q = row (wArr m c) q := funext fun k => wBlock_apply m c t q k
  rw [hx, hw]

/-! ## The blocks tile the array -/

/-- An index of the result array is in point `t`'s block iff each coordinate is in the block's range on its axis. -/
theorem mem_block (t : Fin cfg0.N) (i : S262144x256.Idx) :
    i ∈ ((cfg0.win 3).blk t).view.set ↔ ∀ a : Fin 2, win0_3.index t a * S2048x256.size a ≤ (i a).val ∧ (i a).val < win0_3.index t a * S2048x256.size a + S2048x256.size a := by
  show i ∈ ((View.whole main_v0).slice (win0_3.rect t)).set ↔ _
  rw [View.set_slice_whole, Rect.mem_set_unit]
  exact Iff.rfl

/-- Row `r` of the array lies in the block of point `r / 2048`, which writes back: every index is covered. -/
theorem covered (i : S262144x256.Idx) :
    ∃ t : Fin cfg0.N, (cfg0.win 3).flush t = true ∧ i ∈ ((cfg0.win 3).blk t).view.set := by
  have hi0 : (i 0).val < 262144 := (i 0).isLt
  have hi1 : (i 1).val < 256 := (i 1).isLt
  have hN : cfg0.N = 128 := N_0
  have ht : (i 0).val / 2048 < cfg0.N := Nat.lt_of_lt_of_eq (by omega : (i 0).val / 2048 < 128) hN.symm
  refine ⟨⟨(i 0).val / 2048, ht⟩, flush0_3 _, ?_⟩
  rw [mem_block]
  obtain ⟨-, -, -, -, -, e5, e6⟩ := blockIdx ⟨(i 0).val / 2048, ht⟩
  have e5' : win0_3.index ⟨(i 0).val / 2048, ht⟩ (0 : Fin 2) = (i 0).val / 2048 := e5
  intro a
  match a with
  | ⟨0, _⟩ =>
    show win0_3.index ⟨(i 0).val / 2048, ht⟩ (0 : Fin 2) * 2048 ≤ (i 0).val ∧ (i 0).val < win0_3.index ⟨(i 0).val / 2048, ht⟩ (0 : Fin 2) * 2048 + 2048
    omega
  | ⟨1, _⟩ =>
    show win0_3.index ⟨(i 0).val / 2048, ht⟩ (1 : Fin 2) * 256 ≤ (i 1).val ∧ (i 1).val < win0_3.index ⟨(i 0).val / 2048, ht⟩ (1 : Fin 2) * 256 + 256
    omega

/-- THE ARRAY after the run is the result function of the argument arrays. -/
theorem final (c : Dev nD) : (dats m 0 c).arrAt 3 cfg0.N = result (xArr m c) (wArr m c) (bArr m c) :=
  (dats m 0 c).arrAt_eq_of_cover 3 (result (xArr m c) (wArr m c) (bArr m c)) (fun t _ => flushed_eq m c t) covered

/-! ## The run, read -/

/-- Every weakly fair execution of the kernel program terminates with the result array at the result function of
    the arguments as launched, and the arguments unchanged. -/
theorem run : θ_run defs (onTc (τ := τ) (main (F := Ideal))) ⟨m, fun _ => 0, ρ⟩ fun r => ∀ c : Dev nD,
      r.2.mem ((c : Thread nD τ).loc main_v0) = result (xArr m c) (wArr m c) (bArr m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.ArrayValue

end
-- ==== Proof.RefValue.lean ====
/-
  The reference's result, read index by index, is the specification's function.

  The reference program is thirty-eight host operations; its generated stages read each one at an index. Followed
  from the last stage back to the arguments at `(r, o)`: the centred `weight` and `x` arrays read a row's entry minus
  the row's sum over 256; the two lengths are square roots of the row sums of squares, carried through keepdims
  columns and a one-row broadcast; the `dot_general` contracts the two centred rows; the clamp is a maximum with
  the floor word on its left, which commutes; and the bias is row-broadcast. Each host sum starts from the zero
  word, which is the real zero.
-/
import proofs.«117806_j29291676959209_1_alg».proof.Proof.Gen.ReferenceIdeal.Read
import proofs.«117806_j29291676959209_1_alg».proof.Proof.Spec

noncomputable section

open scoped BigOperators

namespace Cert.ReferenceIdeal.RefValue

open Cert.ReferenceIdeal Cert.ReferenceIdeal.Gen Cert.ReferenceIdeal.Read
open Idealize.ShloMosaic Idealize.ShloMosaic.ValueIdx
open Cert.Pcc

/-! ## The composed index maps at `(r, o)` -/

/-- Through the mean's broadcasts, the row sum under entry `(o, k)` of centred `weight` runs over row `o`. -/
theorem idx_meanW (o k j : Fin 256) : idx_main_v0 (idx_main_v1 (idx_main_v4 (ix2 o k))) j = ix2 o j :=
  funext fun a => Fin.ext (by match a with | ⟨0, _⟩ => rfl | ⟨1, _⟩ => rfl)

/-- Through the mean's broadcasts, the row sum under entry `(r, k)` of centred `x` runs over row `r`. -/
theorem idx_meanX (r : Fin 262144) (k j : Fin 256) : idx_main_v6 (idx_main_v7 (idx_main_v10 (ix2 r k))) j = ix2 r j :=
  funext fun a => Fin.ext (by match a with | ⟨0, _⟩ => rfl | ⟨1, _⟩ => rfl)

/-! ## The centred arrays -/

/-- Centred `weight`: stage 5 at `(o, k)` is row `o`'s entry `k` minus the row's mean. -/
theorem centredW_apply (W : (⟨S256x256, .f32⟩ : BufTy).Contents (Elt Ideal)) (o k : Fin 256) :
    val_main_v5 (F := Ideal) W (ix2 o k) = centre (row W o) k := by
  rw [val_main_v5_apply, val_main_v4_apply, val_main_v3_apply, val_main_v1_apply, val_main_v0_apply, val_main_v2_apply,
    val_main_cst_0_apply, val_main_cst_apply]
  simp only [idx_meanW, Ideal.ofBits_def, Ideal.ofBits_zero_f32, zero_add, Ideal.subf_def, Ideal.hostDivf_def]
  rfl

/-- Centred `x`: stage 11 at `(r, k)` is row `r`'s entry `k` minus the row's mean. -/
theorem centredX_apply (X : (⟨S262144x256, .f32⟩ : BufTy).Contents (Elt Ideal)) (r : Fin 262144) (k : Fin 256) :
    val_main_v11 (F := Ideal) X (ix2 r k) = centre (row X r) k := by
  rw [val_main_v11_apply, val_main_v10_apply, val_main_v9_apply, val_main_v7_apply, val_main_v6_apply, val_main_v8_apply,
    val_main_cst_2_apply, val_main_cst_1_apply]
  simp only [idx_meanX, Ideal.ofBits_def, Ideal.ofBits_zero_f32, zero_add, Ideal.subf_def, Ideal.hostDivf_def]
  rfl

/-! ## The result -/

/-- The left operand of the contraction under `(r, o)` is row `r` of centred `x` … -/
theorem idx_dotL (r : Fin 262144) (o k : Fin 256) : lidx_main_v19 (ix2 r o) k = ix2 r k :=
  funext fun a => Fin.ext (by match a with | ⟨0, _⟩ => rfl | ⟨1, _⟩ => rfl)
/-- … and the right operand row `o` of centred `weight`. -/
theorem idx_dotR (r : Fin 262144) (o k : Fin 256) : ridx_main_v19 (ix2 r o) k = ix2 o k :=
  funext fun a => Fin.ext (by match a with | ⟨0, _⟩ => rfl | ⟨1, _⟩ => rfl)
/-- The sum of squares under the length of `x`'s row runs over row `r` … -/
theorem idx_lenX (r : Fin 262144) (o k : Fin 256) : idx_main_v13 (idx_main_v14 (idx_main_v21 (ix2 r o))) k = ix2 r k :=
  funext fun a => Fin.ext (by match a with | ⟨0, _⟩ => rfl | ⟨1, _⟩ => rfl)
/-- … and the one under the length of `weight`'s row over row `o`. -/
theorem idx_lenW (r : Fin 262144) (o k : Fin 256) : idx_main_v17 (idx_main_v20 (idx_main_v22 (ix2 r o))) k = ix2 o k :=
  funext fun a => Fin.ext (by match a with | ⟨0, _⟩ => rfl | ⟨1, _⟩ => rfl)
/-- The bias under `(r, o)` is entry `o`. -/
theorem idx_bias (r : Fin 262144) (o : Fin 256) : idx_main_v26 (idx_main_v27 (ix2 r o)) = ix1 o :=
  funext fun a => Fin.ext (by match a with | ⟨0, _⟩ => rfl)

/-- The reference's last stage at `(r, o)` is the specification's entry: the rows' correlation, floored, plus the
    bias. The host's maximum has the floor on its left; `max` commutes. -/
theorem result_apply (X : (⟨S262144x256, .f32⟩ : BufTy).Contents (Elt Ideal)) (W : (⟨S256x256, .f32⟩ : BufTy).Contents (Elt Ideal))
    (B : (⟨S256, .f32⟩ : BufTy).Contents (Elt Ideal)) (r : Fin 262144) (o : Fin 256) :
    val_main_v28 (F := Ideal) X W B (ix2 r o) = result X W B (ix2 r o) := by
  rw [result_ix2]
  simp only [val_main_v28_apply, val_main_v25_apply, val_main_v27_apply, val_main_v26_apply, val_main_call0_v1_apply,
    val_main_call0_v0_apply, val_main_cst_5_apply, val_main_v24_apply, val_main_v19_apply, val_main_v23_apply,
    val_main_v21_apply, val_main_v22_apply, val_main_v15_apply, val_main_v14_apply, val_main_v13_apply, val_main_cst_3_apply,
    val_main_v12_apply, val_main_v20_apply, val_main_v18_apply, val_main_v17_apply, val_main_cst_4_apply, val_main_v16_apply,
    idx_dotL, idx_dotR, idx_lenX, idx_lenW, idx_bias, centredX_apply, centredW_apply,
    Ideal.ofBits_def, Ideal.ofBits_zero_f32, zero_add, Ideal.addf_def, Ideal.mulf_def, Ideal.maximumf_def, Ideal.hostDivf_def,
    Ideal.hostUnary_sqrt_def]
  unfold entry length
  rw [max_comm]

/-- The reference's result array is the specification's function of the arguments. -/
theorem result_eq (X : (⟨S262144x256, .f32⟩ : BufTy).Contents (Elt Ideal)) (W : (⟨S256x256, .f32⟩ : BufTy).Contents (Elt Ideal))
    (B : (⟨S256, .f32⟩ : BufTy).Contents (Elt Ideal)) : val_main_v28 (F := Ideal) X W B = result X W B := by
  funext i
  obtain ⟨r, o, rfl⟩ : ∃ (r : Fin 262144) (o : Fin 256), i = ix2 r o := ⟨i 0, i 1, eq_ix2 i⟩
  exact result_apply X W B r o

end Cert.ReferenceIdeal.RefValue

end
-- ==== Proof.lean ====
/- The proof of `Cert.Claim` (proofs.«117806_j29291676959209_1_alg».proof.Defs): a correlation-normalised linear layer.

   Both programs take the mean off every row of `x` and of `weight`, and give at `(r, o)` the inner product of centred
   row `r` of `x` with centred row `o` of `weight` over the product of the two rows' lengths, floored at the f32 word
   nearest 1e-10, plus `bias o` (Proof/Spec.lean). The kernel does it 2048 rows at a time over 128 grid points, with
   its matrix product on bf16 operands into a zero accumulator; on the extended reals the narrowing is the identity
   and the product is the plain sum, so each stored entry is the specification's (Proof/KernelEntry.lean) and the 128
   blocks tile the result (Proof/KernelArray.lean). The reference's thirty-eight host operations read at an index
   give the same entry, its maximum written the other way round (Proof/RefValue.lean). No step needs the inputs
   finite: only commutativity of `max` and `0 + s = s` are used. The three frames are the generated ones, the
   reference's its generated run with the result dropped; the idealization rewrote nothing, so `preserves` is trivial. -/
import proofs.«117806_j29291676959209_1_alg».proof.Defs
import proofs.«117806_j29291676959209_1_alg».proof.Proof.Gen.Kernel
import proofs.«117806_j29291676959209_1_alg».proof.Proof.Gen.Kernel.Skeleton
import proofs.«117806_j29291676959209_1_alg».proof.Proof.Gen.Kernel.Launch
import proofs.«117806_j29291676959209_1_alg».proof.Proof.Gen.Kernel.Points
import proofs.«117806_j29291676959209_1_alg».proof.Proof.Gen.Kernel.Frame
import proofs.«117806_j29291676959209_1_alg».proof.Proof.Gen.KernelIdeal
import proofs.«117806_j29291676959209_1_alg».proof.Proof.Gen.KernelIdeal.Skeleton
import proofs.«117806_j29291676959209_1_alg».proof.Proof.Gen.KernelIdeal.Launch
import proofs.«117806_j29291676959209_1_alg».proof.Proof.Gen.KernelIdeal.Points
import proofs.«117806_j29291676959209_1_alg».proof.Proof.Gen.KernelIdeal.Frame
import proofs.«117806_j29291676959209_1_alg».proof.Proof.Gen.ReferenceIdeal
import proofs.«117806_j29291676959209_1_alg».proof.Proof.Gen.Pre_finite_inputs
import proofs.«117806_j29291676959209_1_alg».proof.Proof.Gen.KernelIdeal.Value
import proofs.«117806_j29291676959209_1_alg».proof.Proof.Gen.ReferenceIdeal.Run
import proofs.«117806_j29291676959209_1_alg».proof.Proof.Gen.ReferenceIdeal.Read
import proofs.«117806_j29291676959209_1_alg».proof.Proof.KernelArray
import proofs.«117806_j29291676959209_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs, faultless, its arguments unchanged: the generated frame. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on `x`, `weight` and `bias`, both programs end with the result array at the
    specification's function of those three arrays. -/
theorem algebraic : Cert.algebraic_KernelIdeal_ReferenceIdeal := by
  intro m ρ m' ρ' _ hagree
  refine ⟨fun c => Cert.Pcc.result (Cert.KernelIdeal.ArrayValue.xArr m c) (Cert.KernelIdeal.ArrayValue.wArr m c)
    (Cert.KernelIdeal.ArrayValue.bArr m c), Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v28_eq, Cert.ReferenceIdeal.RefValue.result_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
